-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S32768x512 : Shape := ⟨2, ![32768, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_

variable [Facts]

def fn {F : FTy → Type} [FloatOps F] (main_arg0 : FVec F S8192x512 .f32) (main_arg1 : FVec F S32768x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  main_v8
-- ==== Kernel.lean ====
abbrev S8192x512 : Shape := ⟨2, ![8192, 512]⟩
abbrev S32768x512 : Shape := ⟨2, ![32768, 512]⟩
abbrev S_ : Shape := ⟨0, ![]⟩
abbrev S8192 : Shape := ⟨1, ![8192]⟩
abbrev S8192x1 : Shape := ⟨2, ![8192, 1]⟩
abbrev S32768 : Shape := ⟨1, ![32768]⟩
abbrev S1x32768 : Shape := ⟨2, ![1, 32768]⟩
abbrev S1024x512 : Shape := ⟨2, ![1024, 512]⟩
abbrev S1024x1 : Shape := ⟨2, ![1024, 1]⟩
abbrev S1x1024 : Shape := ⟨2, ![1, 1024]⟩
abbrev S1024 : Shape := ⟨1, ![1024]⟩
abbrev S1024x1024 : Shape := ⟨2, ![1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S32768x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S32768x512, .f32⟩
  | .hbm, ⟨7, _⟩ => ⟨S_, .f32⟩
  | .hbm, ⟨8, _⟩ => ⟨S32768, .f32⟩
  | .hbm, ⟨9, _⟩ => ⟨S1x32768, .f32⟩
  | .hbm, ⟨10, _⟩ => ⟨S8192, .f32⟩
  | .hbm, ⟨11, _⟩ => ⟨S_, .f32⟩
  | .hbm, ⟨12, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024, .f32⟩
  | .local _ .vmem, ⟨9, _⟩ => ⟨S1024, .f32⟩
  | .local _ .vmem, ⟨10, _⟩ => ⟨S1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S32768x512_S32768_d1 : S32768x512.ReducesTo [1] S32768
  bcast_S32768_S1x32768_1 : S32768.BroadcastsInDim S1x32768 (![1] : Fin 1 → Fin S1x32768.rank)
  inb_S1024_S1024_0 : ∀ a, (![0] : Fin 1 → Nat) a + S1024.size a ≤ S1024.size a
  h_S1024 : 0 < S1024.numel
  shapeCasts_S1024_S1024 : S1024.ShapeCasts S1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reducesTo_S8192_S_d0 : S8192.ReducesTo [0] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x32768.size a
  hwx0_3 : ∀ i : grid0.Coords, EltTy.bits .f32 = 32 ∨ (Rect.block (s := S1x32768) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S32768x512 : Shape := ⟨2, ![32768, 512]⟩
abbrev S_ : Shape := ⟨0, ![]⟩
abbrev S8192 : Shape := ⟨1, ![8192]⟩
abbrev S32768 : Shape := ⟨1, ![32768]⟩
abbrev S8192x32768 : Shape := ⟨2, ![8192, 32768]⟩
abbrev S8192x1 : Shape := ⟨2, ![8192, 1]⟩
abbrev S1x32768 : Shape := ⟨2, ![1, 32768]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S32768x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S32768x512, .f32⟩
  | .hbm, ⟨6, _⟩ => ⟨S_, .f32⟩
  | .hbm, ⟨7, _⟩ => ⟨S32768, .f32⟩
  | .hbm, ⟨8, _⟩ => ⟨S8192x32768, .f32⟩
  | .hbm, ⟨9, _⟩ => ⟨S8192x1, .f32⟩
  | .hbm, ⟨10, _⟩ => ⟨S1x32768, .f32⟩
  | .hbm, ⟨11, _⟩ => ⟨S8192x32768, .f32⟩
  | .hbm, ⟨12, _⟩ => ⟨S8192x32768, .f32⟩
  | .hbm, ⟨13, _⟩ => ⟨S8192x32768, .f32⟩
  | .hbm, ⟨14, _⟩ => ⟨S_, .f32⟩
  | .hbm, ⟨15, _⟩ => ⟨S8192x32768, .f32⟩
  | .hbm, ⟨16, _⟩ => ⟨S8192x32768, .f32⟩
  | .hbm, ⟨17, _⟩ => ⟨S8192x32768, .f32⟩
  | .hbm, ⟨18, _⟩ => ⟨S_, .f32⟩
  | .hbm, ⟨19, _⟩ => ⟨S8192x32768, .f32⟩
  | .hbm, ⟨20, _⟩ => ⟨S8192x32768, .f32⟩
  | .hbm, ⟨21, _⟩ => ⟨S8192x32768, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  reducesTo_S32768x512_S32768_d1 : S32768x512.ReducesTo [1] S32768
  bcast_S8192_S8192x1_0 : S8192.BroadcastsInDim S8192x1 (![0] : Fin 1 → Fin S8192x1.rank)
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  bcast_S_S8192x32768 : S_.BroadcastsInDim S8192x32768 (![] : Fin 0 → Fin S8192x32768.rank)
  reducesTo_S8192x32768_S8192_d1 : S8192x32768.ReducesTo [1] S8192
  reducesTo_S8192_S_d0 : S8192.ReducesTo [0] S_
  dot_S8192x512_S32768x512_S8192x32768_1_1_0_0_n_n_wf : DotDims.WF S8192x512 S32768x512 S8192x32768 [1] [1] [0] [0] [] []

variable [Facts₀]

def dot_S8192x512_S32768x512_S8192x32768_1_1_0_0_n_n : DotDims S8192x512 S32768x512 S8192x32768 where
  lhsContracting := [1]
  rhsContracting := [1]
  lhsNonContracting := [0]
  rhsNonContracting := [0]
  lhsBatch := []
  rhsBatch := []
  wf := dot_S8192x512_S32768x512_S8192x32768_1_1_0_0_n_n_wf

class Facts : Prop extends Facts₀ where

variable [Facts]
-- ==== Proof.CasePieces.lean ====
/-
  What one run of the body leaves behind, in each of its three control cases, as values.

  The running minimum lives in a scratch vector of 1024 entries. At the first memory block of a patch block the body
  first fills the scratch with `+∞` and then stores the block's update computed from that fill; at every other memory
  block it stores the update computed from what the scratch held; at the last memory block it also copies the updated
  scratch into the output block. Each store covers its whole buffer, so what a buffer holds afterwards is the last
  store's value.
-/
import proofs.«118768_j2585570312716_1_alg».proof.Proof.Gen.KernelIdeal.Frame
import Idealize.ShloMosaic.Lib.Pipeline.Value
import Idealize.ShloMosaic.Lib.Tactic

set_option maxRecDepth 16384

noncomputable section

namespace Cert.KernelIdeal.CasePieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl

/-- A memory block that is neither first nor last: the scratch ends at the update of what it held. -/
theorem scratch_mid (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024 .f32) (harg6 : arg6.IsWhole) (arg7 : Memref sig .tc .vmem S1024 .f32) (harg7 : arg7.IsWhole) (hc0 : ¬cond0_0 i) (hc1 : ¬cond0_1 i)
    (x0 : Vec F S1024x512 .f32) (x1 : Vec F S1024x512 .f32) (x2 : Vec F S1024x1 .f32) (x3 : Vec F S1x1024 .f32) (xs0 : Vec F S1024 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz1]
  simp only [View.readAt_eq_ld, harg2.read_unread, harg3.read_unread, harg4.read_unread, harg5.read_unread, harg6.read_unread, harg7.read_unread, View.ld_unit_zero (S := S1024x512) hz2, View.ld_unit_zero (S := S1024x1) hz2, View.ld_unit_zero (S := S1x1024) hz2, View.ld_unit_zero (S := S1024) hz1, View.readCov_unit_zero (S := S1024) _ hz1]

/-- The last memory block: the scratch ends at the update of what it held, -/
theorem scratch_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024 .f32) (harg6 : arg6.IsWhole) (arg7 : Memref sig .tc .vmem S1024 .f32) (harg7 : arg7.IsWhole) (hc0 : ¬cond0_0 i) (hc1 : cond0_1 i)
    (x0 : Vec F S1024x512 .f32) (x1 : Vec F S1024x512 .f32) (x2 : Vec F S1024x1 .f32) (x3 : Vec F S1x1024 .f32) (xs0 : Vec F S1024 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz1]
  simp only [View.readAt_eq_ld, harg2.read_unread, harg3.read_unread, harg4.read_unread, harg5.read_unread, harg6.read_unread, harg7.read_unread, View.ld_unit_zero (S := S1024x512) hz2, View.ld_unit_zero (S := S1024x1) hz2, View.ld_unit_zero (S := S1x1024) hz2, View.ld_unit_zero (S := S1024) hz1, View.readCov_unit_zero (S := S1024) _ hz1]

/-- and the output block receives that same updated scratch. -/
theorem out_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024 .f32) (harg6 : arg6.IsWhole) (arg7 : Memref sig .tc .vmem S1024 .f32) (harg7 : arg7.IsWhole) (hc0 : ¬cond0_0 i) (hc1 : cond0_1 i)
    (x0 : Vec F S1024x512 .f32) (x1 : Vec F S1024x512 .f32) (x2 : Vec F S1024x1 .f32) (x3 : Vec F S1x1024 .f32) (xs0 : Vec F S1024 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz1]
  simp only [View.readAt_eq_ld, harg2.read_unread, harg3.read_unread, harg4.read_unread, harg5.read_unread, harg6.read_unread, harg7.read_unread, View.ld_unit_zero (S := S1024x512) hz2, View.ld_unit_zero (S := S1024x1) hz2, View.ld_unit_zero (S := S1x1024) hz2, View.ld_unit_zero (S := S1024) hz1, View.readCov_unit_zero (S := S1024) _ hz1]

/-- The first memory block: the scratch ends at the update of the `+∞` fill. -/
theorem scratch_first (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024 .f32) (harg6 : arg6.IsWhole) (arg7 : Memref sig .tc .vmem S1024 .f32) (harg7 : arg7.IsWhole) (hc0 : cond0_0 i) (hc1 : ¬cond0_1 i)
    (x0 : Vec F S1024x512 .f32) (x1 : Vec F S1024x512 .f32) (x2 : Vec F S1024x1 .f32) (x3 : Vec F S1x1024 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024) hz1, View.readCov_unit_zero (S := S1024) _ hz1]
  simp only [View.readAt_eq_ld, harg2.read_unread, harg3.read_unread, harg4.read_unread, harg5.read_unread, harg6.read_unread, harg7.read_unread, View.ld_unit_zero (S := S1024x512) hz2, View.ld_unit_zero (S := S1024x1) hz2, View.ld_unit_zero (S := S1x1024) hz2, View.ld_unit_zero (S := S1024) hz1, View.readCov_unit_zero (S := S1024) _ hz1]

end Cert.KernelIdeal.CasePieces

end
-- ==== Proof.NearestSpec.lean ====
/-
  The nearest-memory distance of every patch row, as one function of the arrays.

  For a patch row `n` and a memory row `m` the distance is the root of `(a n + b m) − 2 · ⟨x n, y m⟩` cut off below
  at zero, where `a`, `b` are the rows' squared norms and `⟨x n, y m⟩` the inner product over the 512 features.
  `nearest` is, for each patch row, the infimum of that distance over all 32768 memory rows; `nearestUpTo n k` the
  infimum over the first `k` memory rows only. The infimum over no row is `⊤`; taking in the next 1024 memory rows is one
  `min` with the infimum over those rows (`nearestUpTo_tile`); after all 32 groups of 1024 it is `nearest`.
  The extended reals are a complete linear order, so nothing here needs the entries to be finite.
-/
import Idealize.ShloMosaic.PureOps.Ideal
import Idealize.ShloMosaic.PureOps.Ideal.Laws
import Idealize.ShloMosaic.Lib.ValueIdx

noncomputable section

open scoped BigOperators

namespace Cert.NearestMemory

open Idealize.ShloMosaic Idealize.ShloMosaic.ValueIdx

/-- The f32 pattern of `+∞` denotes the top of the extended reals. -/
theorem posInf_eq_top : Ideal.ofBits .f32 0x7F800000#32 = (⊤ : EReal) := by
  simp [Ideal.ofBits, Ideal.ieee]

/-- A fold of `min` from `+∞` over a whole finite index type is the infimum over it. -/
theorem fold_min_posInf {ι : Type} [Fintype ι] (f : ι → EReal) :
    (Finset.univ : Finset ι).fold min (Ideal.ofBits .f32 0x7F800000#32) f = Finset.univ.inf f := by
  rw [posInf_eq_top]
  rfl

/-- The distance from the squared norms `a`, `b` and the inner product `cr`. -/
def pairDist (a b cr : EReal) : EReal :=
  Ideal.sqrt (max (a + b - Ideal.ofBits .f32 0x40000000#32 * cr) (Ideal.ofBits .f32 0x00000000#32))

variable (A : (⟨1, ![8192]⟩ : Shape).Idx → EReal) (B : (⟨1, ![32768]⟩ : Shape).Idx → EReal)
  (X : (⟨2, ![8192, 512]⟩ : Shape).Idx → EReal) (Y : (⟨2, ![32768, 512]⟩ : Shape).Idx → EReal)

/-- The distance of patch row `n` and memory row `m`. -/
def dist (n : Fin 8192) (m : Fin 32768) : EReal :=
  pairDist (A (ix1 n)) (B (ix1 m)) (∑ k : Fin 512, X (ix2 n k) * Y (ix2 m k))

/-- The least distance of patch row `n` to the first `k` memory rows. -/
def nearestUpTo (n : Fin 8192) (k : ℕ) : EReal :=
  (Finset.univ.filter fun m : Fin 32768 => m.val < k).inf (dist A B X Y n)

/-- The least distance of every patch row to the whole memory. -/
def nearest : (⟨1, ![8192]⟩ : Shape).Idx → EReal := fun i => Finset.univ.inf (dist A B X Y (i 0))

/-- Over no memory row the infimum is `⊤`. -/
theorem nearestUpTo_zero (n : Fin 8192) : nearestUpTo A B X Y n 0 = ⊤ := by
  unfold nearestUpTo
  rw [Finset.filter_false_of_mem (fun m _ => Nat.not_lt_zero _), Finset.inf_empty]

/-- Over all 32768 memory rows it is `nearest`. -/
theorem nearestUpTo_all (n : Fin 8192) : nearestUpTo A B X Y n 32768 = nearest A B X Y (ix1 n) := by
  unfold nearestUpTo nearest
  rw [Finset.filter_true_of_mem (fun m _ => m.isLt)]

/-- Taking in memory rows `1024 j … 1024 j + 1023`: the infimum over the first `1024 (j + 1)` rows is the smaller of
    the infimum over the first `1024 j` and the infimum over that group. -/
theorem nearestUpTo_tile (n : Fin 8192) (j : ℕ) (hj : j < 32) :
    min (nearestUpTo A B X Y n (1024 * j))
        (Finset.univ.inf fun q : Fin 1024 => dist A B X Y n ⟨1024 * j + q.val, by have := q.isLt; omega⟩)
      = nearestUpTo A B X Y n (1024 * (j + 1)) := by
  unfold nearestUpTo
  apply le_antisymm
  · -- below every row of the longer prefix: an old row by the left infimum, a new row by the right
    rw [Finset.le_inf_iff]
    intro m hm
    rw [Finset.mem_filter] at hm
    by_cases h : m.val < 1024 * j
    · exact (min_le_left _ _).trans (Finset.inf_le (Finset.mem_filter.mpr ⟨Finset.mem_univ _, h⟩))
    · have hq : m.val - 1024 * j < 1024 := by omega
      refine (min_le_right _ _).trans ?_
      refine (Finset.inf_le (f := fun q : Fin 1024 => dist A B X Y n ⟨1024 * j + q.val, by have := q.isLt; omega⟩)
        (Finset.mem_univ (⟨m.val - 1024 * j, hq⟩ : Fin 1024))).trans (le_of_eq ?_)
      show dist A B X Y n ⟨1024 * j + (m.val - 1024 * j), _⟩ = dist A B X Y n m
      congr 1
      apply Fin.ext
      show 1024 * j + (m.val - 1024 * j) = m.val
      omega
  · -- the longer prefix contains the shorter one and the new group
    refine le_min ?_ ?_
    · exact Finset.inf_mono fun m hm => by
        rw [Finset.mem_filter] at hm ⊢
        exact ⟨hm.1, by omega⟩
    · rw [Finset.le_inf_iff]
      intro q _
      exact Finset.inf_le (Finset.mem_filter.mpr ⟨Finset.mem_univ _, by
        show 1024 * j + q.val < 1024 * (j + 1)
        have := q.isLt
        omega⟩)

end Cert.NearestMemory

end
-- ==== Proof.TileValue.lean ====
/-
  One grid point's arithmetic, entry by entry.

  At a grid point the body holds a block `x0` of 1024 patch rows, a block `x1` of 1024 memory rows, the patch rows'
  squared norms `x2` (a column) and the memory rows' squared norms `x3` (a row), and the running minimum `acc`.
  It leaves, at row `r`, the smaller of `acc r` and the infimum over the block's 1024 memory rows `q` of the
  distance from `x2 r`, `x3 q` and the inner product `∑ₖ x0 r k · x1 q k`: the matrix product contracts the feature
  axis of both operands, the narrowing to bf16 is the identity on the extended reals, the two norm vectors are
  broadcast along the other axis, and the lane reduction by `min` from `+∞` is an infimum.
-/
import proofs.«118768_j2585570312716_1_alg».proof.Proof.Gen.KernelIdeal.Skeleton
import proofs.«118768_j2585570312716_1_alg».proof.Proof.NearestSpec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.KernelIdeal.TileValue

open Cert.KernelIdeal Cert.KernelIdeal.Gen Idealize.ShloMosaic Idealize.ShloMosaic.ValueIdx Cert.NearestMemory

/-! ## The product's operand indices -/

theorem lhs_tile_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_tile_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_tile_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_tile_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The block product at `(r, q)`: the inner product of patch row `r` and memory row `q` over the 512 features. -/
theorem cross_tile (l : FVec Ideal S1024x512 .bf16) (rr : FVec Ideal S1024x512 .bf16) (r q : Fin 1024) :
    matmul dot_S1024x512_S1024x512_S1024x1024_1_1_0_0_n_n none l rr (constant (F := Ideal) S1024x1024 .f32 0x00000000#32) (ix2 r q)
      = ∑ k : Fin 512, l (ix2 r k) * rr (ix2 q k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r q) ((ValueIdx.contrEquiv1 dot_S1024x512_S1024x512_S1024x1024_1_1_0_0_n_n 512 rfl rfl).symm k) = ix2 r k := funext fun a => Fin.ext (by
    match a with
    | ⟨0, _⟩ => exact lhs_tile_0 _ _
    | ⟨1, _⟩ => exact (lhs_tile_1 _ _).trans hk)
  have er : dot_S1024x512_S1024x512_S1024x1024_1_1_0_0_n_n.rhsIdx (ix2 r q) ((ValueIdx.contrEquiv1 dot_S1024x512_S1024x512_S1024x1024_1_1_0_0_n_n 512 rfl rfl).symm k) = ix2 q k := funext fun a => Fin.ext (by
    match a with
    | ⟨0, _⟩ => exact rhs_tile_0 _ _
    | ⟨1, _⟩ => exact (rhs_tile_1 _ _).trans hk)
  rw [el, er]

/-- A column of 1024 entries spread along the lanes, read at `(r, q)`: the column's entry `r`. -/
theorem spread_col (v : FVec Ideal S1024x1 .f32) (r q : Fin 1024) :
    broadcastTo S1024x1024 v broadcasts_S1024x1_S1024x1024 (ix2 r q) = v (ix2 r 0) :=
  broadcastTo_apply v broadcasts_S1024x1_S1024x1024 (ix2 r q) (ix2 r 0) (fun a => match a with
    | ⟨0, _⟩ => by show r.val = if (1024 : Nat) = 1 then 0 else r.val; rw [if_neg (by decide)]
    | ⟨1, _⟩ => by show 0 = if (1 : Nat) = 1 then 0 else q.val; rw [if_pos rfl])

/-- A row of 1024 entries spread down the rows, read at `(r, q)`: the row's entry `q`. -/
theorem spread_row (v : FVec Ideal S1x1024 .f32) (r q : Fin 1024) :
    broadcastTo S1024x1024 v broadcasts_S1x1024_S1024x1024 (ix2 r q) = v (ix2 0 q) :=
  broadcastTo_apply v broadcasts_S1x1024_S1024x1024 (ix2 r q) (ix2 0 q) (fun a => match a with
    | ⟨0, _⟩ => by show 0 = if (1 : Nat) = 1 then 0 else r.val; rw [if_pos rfl]
    | ⟨1, _⟩ => by show q.val = if (1024 : Nat) = 1 then 0 else q.val; rw [if_neg (by decide)])

/-- A lane reduction by `min` from `+∞` of a 1024 × 1024 vector, at row `r`: the infimum over the row. -/
theorem lane_min (v : FVec Ideal S1024x1024 .f32) (hφ : FKind.Formats .f32)
    (hacc : (0x7F800000#32 : BitVec 32) = FKind.minimumf.neutral .f32 hφ) (r : Fin 1024) :
    multiReduction (F := Ideal) .minimumf [1] S1024 v 0x7F800000#32 reduces_S1024x1024_S1024 hφ hacc (ix1 r)
      = Finset.univ.inf fun q : Fin 1024 => v (ix2 r q) := by
  refine (multiReduction_minimumf_eq_fold v _ reduces_S1024x1024_S1024 hφ hacc (ix1 r)).trans ?_
  refine (reduces_S1024x1024_S1024.fold_filter_drop_single _ _ v (ix1 r)).trans ?_
  refine (fold_min_posInf (ι := Fin 1024) _).trans ?_
  refine congrArg (Finset.univ.inf) (funext fun q => ?_)
  exact congrArg v (funext fun a => Fin.ext (by match a with | ⟨0, _⟩ => rfl | ⟨1, _⟩ => rfl))

/-- What one grid point stores into the running minimum, at row `r`. -/
theorem tile_pay (x0 x1 : Vec Ideal S1024x512 .f32) (x2 : Vec Ideal S1024x1 .f32) (x3 : Vec Ideal S1x1024 .f32)
    (acc : Vec Ideal S1024 .f32) (r : Fin 1024) :
    k0_pay2 (F := Ideal) x0 x1 x2 x3 acc (ix1 r)
      = min (acc (ix1 r)) (Finset.univ.inf fun q : Fin 1024 =>
          pairDist (x2 (ix2 r 0)) (x3 (ix2 0 q)) (∑ k : Fin 512, x0 (ix2 r k) * x1 (ix2 q k))) := by
  unfold k0_pay2
  dsimp only
  rw [shapeCast_self]
  refine (congrArg (min (acc (ix1 r))) (lane_min _ _ _ r)).trans ?_
  refine congrArg (min (acc (ix1 r))) (congrArg Finset.univ.inf (funext fun q => ?_))
  show Ideal.sqrt (max
      ((broadcastTo S1024x1024 (shapeCast S1024x1 x2 shapeCasts_S1024x1_S1024x1) broadcasts_S1024x1_S1024x1024 (ix2 r q)
          + broadcastTo S1024x1024 (shapeCast S1x1024 x3 shapeCasts_S1x1024_S1x1024) broadcasts_S1x1024_S1024x1024 (ix2 r q))
        - Ideal.ofBits .f32 0x40000000#32
          * matmul dot_S1024x512_S1024x512_S1024x1024_1_1_0_0_n_n none (truncf .bf16 x0 bitsLt_bf16_f32) (truncf .bf16 x1 bitsLt_bf16_f32)
              (constant (F := Ideal) S1024x1024 .f32 0x00000000#32) (ix2 r q))
      (Ideal.ofBits .f32 0x00000000#32)) = _
  rw [spread_col, spread_row, cross_tile, shapeCast_self, shapeCast_self]
  rfl

end Cert.KernelIdeal.TileValue

end
-- ==== Proof.RunningMin.lean ====
/-
  The running minimum across the grid.

  The grid has 8 × 32 points, point `t` holding patch block `t / 32` and memory block `t % 32`. Patch row `r` of the
  block at point `t` is row `1024 (t / 32) + r` of the patches, memory row `q` of it row `1024 (t % 32) + q` of the
  memory; the two norm vectors the body reads are the rows' squared norms, computed before the grid runs and
  broadcast to a column and to a row. So after point `t` the scratch holds, at `r`, the least distance of that patch
  row to the first `1024 (t % 32 + 1)` memory rows (induction on the point: the first memory block starts from
  `+∞`, every later one from what the point before left), and the last memory block's output is the least distance
  to the whole memory.
-/
import proofs.«118768_j2585570312716_1_alg».proof.Proof.CasePieces
import proofs.«118768_j2585570312716_1_alg».proof.Proof.TileValue
import Idealize.ShloMosaic.Lib.StableHlo.Run
import Idealize.ShloMosaic.Lib.Tactic

set_option maxRecDepth 16384

noncomputable section

open scoped BigOperators

namespace Cert.KernelIdeal.RunningMin

open Cert.KernelIdeal Cert.KernelIdeal.Gen Idealize.ShloMosaic Idealize.ShloMosaic.TcCoe Idealize.SL.Sem
open Idealize.ShloMosaic.ValueIdx Cert.NearestMemory

variable (m : (ℓ : Loc nD τ sig) → Buf (Elt Ideal) ℓ)

/-! ## The arrays -/

/-- The patches and the memory as launched, -/
abbrev patches (c : Dev nD) : (⟨2, ![8192, 512]⟩ : Shape).Idx → EReal := m ((c : Thread nD τ).loc main_arg0)
abbrev memory (c : Dev nD) : (⟨2, ![32768, 512]⟩ : Shape).Idx → EReal := m ((c : Thread nD τ).loc main_arg1)
/-- and their rows' squared norms: the sum over the features of the squares. -/
abbrev patchSq (c : Dev nD) : (⟨1, ![8192]⟩ : Shape).Idx → EReal :=
  Host.reduceAdd (F := Ideal) (mulf (patches m c) (patches m c)) (constant S_ .f32 0x00000000#32) reducesTo_S8192x512_S8192_d1 h_S_
abbrev memorySq (c : Dev nD) : (⟨1, ![32768]⟩ : Shape).Idx → EReal :=
  Host.reduceAdd (F := Ideal) (mulf (memory m c) (memory m c)) (constant S_ .f32 0x00000000#32) reducesTo_S32768x512_S32768_d1 h_S_

/-- The column of patch norms as the grid finds it. -/
theorem V_patchSq (c : Dev nD) :
    (V m c main_v2 : S8192x1.Idx → EReal) = broadcastInDim S8192x1 ![0] bcast_S8192_S8192x1_0 (patchSq m c) := by
  show StableHlo.after hostOps0 (fun b => m (c, b)) (Proc.devRef .tc main_v2) = _
  after_results

/-- The row of memory norms as the grid finds it. -/
theorem V_memorySq (c : Dev nD) :
    (V m c main_v5 : S1x32768.Idx → EReal) = broadcastInDim S1x32768 ![1] bcast_S32768_S1x32768_1 (memorySq m c) := by
  show StableHlo.after hostOps0 (fun b => m (c, b)) (Proc.devRef .tc main_v5) = _
  after_results

/-! ## A grid point's blocks -/

abbrev pblk (c : Dev nD) (t : Fin cfg0.N) : Vec Ideal S1024x512 .f32 := iblk m c 0 t
abbrev mblk (c : Dev nD) (t : Fin cfg0.N) : Vec Ideal S1024x512 .f32 := iblk m c 1 t
abbrev pnorm (c : Dev nD) (t : Fin cfg0.N) : Vec Ideal S1024x1 .f32 := iblk m c 2 t
abbrev mnorm (c : Dev nD) (t : Fin cfg0.N) : Vec Ideal S1x1024 .f32 := iblk m c 3 t

/-- The block indices at point `t`: the patch block is `t / 32`, the memory block `t % 32`. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = 0
    ∧ win0_3.index t (0 : Fin 2) = 0 ∧ win0_3.index t (1 : Fin 2) = t.val % 32
    ∧ win0_4.index t (0 : Fin 1) = t.val / 32 :=
  (by decide +kernel : ∀ t : Fin grid0.N, _)

theorem pblk_apply (c : Dev nD) (t : Fin cfg0.N) (r : Fin 1024) (k : Fin 512) (row : Fin 8192)
    (hrow : row.val = 1024 * (t.val / 32) + r.val) : pblk m c t (ix2 r k) = patches m c (ix2 row k) := by
  obtain ⟨e0, e1, e2, e3, e4, e5, e6, e7, e8⟩ := idx_facts t
  show iblk m c 0 t (ix2 r k) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * r.val = row.val; omega
  | ⟨1, _⟩ => show win0_0.index t (1 : Fin 2) * 512 + 1 * k.val = k.val; omega

theorem mblk_apply (c : Dev nD) (t : Fin cfg0.N) (q : Fin 1024) (k : Fin 512) (mm : Fin 32768)
    (hmm : mm.val = 1024 * (t.val % 32) + q.val) : mblk m c t (ix2 q k) = memory m c (ix2 mm k) := by
  obtain ⟨e0, e1, e2, e3, e4, e5, e6, e7, e8⟩ := idx_facts t
  show iblk m c 1 t (ix2 q k) = _
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * q.val = mm.val; omega
  | ⟨1, _⟩ => show win0_1.index t (1 : Fin 2) * 512 + 1 * k.val = k.val; omega

theorem pnorm_apply (c : Dev nD) (t : Fin cfg0.N) (r : Fin 1024) (row : Fin 8192)
    (hrow : row.val = 1024 * (t.val / 32) + r.val) : pnorm m c t (ix2 r 0) = patchSq m c (ix1 row) := by
  obtain ⟨e0, e1, e2, e3, e4, e5, e6, e7, e8⟩ := idx_facts t
  show iblk m c 2 t (ix2 r 0) = _
  unfold iblk
  rw [View.read_apply]
  show (V m c main_v2 : S8192x1.Idx → EReal) _ = _
  rw [V_patchSq]
  refine broadcastInDim_apply _ bcast_S8192_S8192x1_0 (patchSq m c) _ (ix1 row) (fun a => ?_)
  match a with
  | ⟨0, _⟩ =>
    show row.val = if (8192 : Nat) = 1 then 0 else win0_2.index t (0 : Fin 2) * 1024 + 1 * r.val
    rw [if_neg (by decide)]; omega

theorem mnorm_apply (c : Dev nD) (t : Fin cfg0.N) (q : Fin 1024) (mm : Fin 32768)
    (hmm : mm.val = 1024 * (t.val % 32) + q.val) : mnorm m c t (ix2 0 q) = memorySq m c (ix1 mm) := by
  obtain ⟨e0, e1, e2, e3, e4, e5, e6, e7, e8⟩ := idx_facts t
  show iblk m c 3 t (ix2 0 q) = _
  unfold iblk
  rw [View.read_apply]
  show (V m c main_v5 : S1x32768.Idx → EReal) _ = _
  rw [V_memorySq]
  refine broadcastInDim_apply _ bcast_S32768_S1x32768_1 (memorySq m c) _ (ix1 mm) (fun a => ?_)
  match a with
  | ⟨0, _⟩ =>
    show mm.val = if (32768 : Nat) = 1 then 0 else win0_3.index t (1 : Fin 2) * 1024 + 1 * q.val
    rw [if_neg (by decide)]; omega

/-! ## One point's step -/

/-- The least distance of patch row `row` to the first `k` memory rows, over this run's arrays. -/
abbrev upTo (c : Dev nD) (row : Fin 8192) (k : ℕ) : EReal :=
  nearestUpTo (patchSq m c) (memorySq m c) (patches m c) (memory m c) row k

/-- If the running minimum holds, at `r`, the least distance to the memory rows before this point's block, the
    point's update holds the least distance to the rows up to the end of its block. -/
theorem point_step (c : Dev nD) (t : Fin cfg0.N) (acc : Vec Ideal S1024 .f32) (r : Fin 1024) (row : Fin 8192)
    (hrow : row.val = 1024 * (t.val / 32) + r.val) (hacc : acc (ix1 r) = upTo m c row (1024 * (t.val % 32))) :
    k0_pay2 (F := Ideal) (pblk m c t) (mblk m c t) (pnorm m c t) (mnorm m c t) acc (ix1 r)
      = upTo m c row (1024 * (t.val % 32 + 1)) := by
  have hj : t.val % 32 < 32 := Nat.mod_lt _ (by decide)
  rw [TileValue.tile_pay, hacc]
  refine Eq.trans ?_ (nearestUpTo_tile (patchSq m c) (memorySq m c) (patches m c) (memory m c) row (t.val % 32) hj)
  refine congrArg (min _) (congrArg Finset.univ.inf (funext fun q => ?_))
  have hq := q.isLt
  unfold NearestMemory.dist
  rw [pnorm_apply m c t r row hrow, mnorm_apply m c t q ⟨1024 * (t.val % 32) + q.val, by omega⟩ rfl]
  refine congrArg (pairDist _ _) (Finset.sum_congr rfl fun k _ => ?_)
  rw [pblk_apply m c t r k row hrow, mblk_apply m c t q k ⟨1024 * (t.val % 32) + q.val, by omega⟩ rfl]

/-! ## Across the points -/

/-- The `+∞` fill is, at every row, the least distance to no memory row. -/
theorem fill_apply (c : Dev nD) (row : Fin 8192) (r : Fin 1024) :
    (k0_pay1 (F := Ideal) : Vec Ideal S1024 .f32) (ix1 r) = upTo m c row 0 := by
  unfold k0_pay1
  rw [shapeCast_self]
  show Ideal.ofBits .f32 0x7F800000#32 = _
  rw [posInf_eq_top]
  exact (nearestUpTo_zero _ _ _ _ row).symm

/-- At a patch block's first memory block the scratch ends at the least distance to that block's rows. -/
theorem first_block (c : Dev nD) (t : Fin cfg0.N) (h0 : t.val % 32 = 0) (r : Fin 1024) (row : Fin 8192)
    (hrow : row.val = 1024 * (t.val / 32) + r.val) :
    ((outsAt0 m c t.val t.isLt).2 : Vec Ideal S1024 .f32) (ix1 r) = upTo m c row (1024 * (t.val % 32 + 1)) := by
  have h1 : ¬t.val % 32 = 31 := by omega
  rw [outsAt0_A m c t h0 h1]
  dsimp only
  refine (congrFun (CasePieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)) (ix1 r)).trans ?_
  refine point_step m c t _ r row hrow ?_
  rw [h0]
  exact fill_apply m c row r

/-- At every later memory block the scratch goes from the least distance to the rows before the block to the least
    distance to the rows up to its end. -/
theorem later_block (c : Dev nD) (t : Fin cfg0.N) (h0 : ¬t.val % 32 = 0) (r : Fin 1024) (row : Fin 8192)
    (hrow : row.val = 1024 * (t.val / 32) + r.val)
    (hprev : ((outsAt0 m c (t.val - 1) (Nat.lt_of_le_of_lt (Nat.sub_le _ _) t.isLt)).2 : Vec Ideal S1024 .f32) (ix1 r)
      = upTo m c row (1024 * (t.val % 32))) :
    ((outsAt0 m c t.val t.isLt).2 : Vec Ideal S1024 .f32) (ix1 r) = upTo m c row (1024 * (t.val % 32 + 1)) := by
  by_cases h1 : t.val % 32 = 31
  · rw [outsAt0_C m c t h0 h1]
    dsimp only
    refine (congrFun (CasePieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)
      (outsAt0 m c (t.val - 1) (Nat.lt_of_le_of_lt (Nat.sub_le _ _) t.isLt)).2) (ix1 r)).trans ?_
    exact point_step m c t _ r row hrow hprev
  · rw [outsAt0_B m c t h0 h1]
    dsimp only
    refine (congrFun (CasePieces.scratch_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)
      (outsAt0 m c (t.val - 1) (Nat.lt_of_le_of_lt (Nat.sub_le _ _) t.isLt)).2) (ix1 r)).trans ?_
    exact point_step m c t _ r row hrow hprev

/-- After point `n` the scratch holds, at `r`, the least distance of patch row `1024 (n / 32) + r` to the first
    `1024 (n % 32 + 1)` memory rows. -/
theorem scratch_after (c : Dev nD) : ∀ (n : ℕ) (h : n < cfg0.N) (r : Fin 1024) (row : Fin 8192),
    row.val = 1024 * (n / 32) + r.val →
    ((outsAt0 m c n h).2 : Vec Ideal S1024 .f32) (ix1 r) = upTo m c row (1024 * (n % 32 + 1))
  | 0, h, r, row, hrow => first_block m c ⟨0, h⟩ (Nat.zero_mod _) r row hrow
  | n + 1, h, r, row, hrow => by
    by_cases h0 : (n + 1) % 32 = 0
    · exact first_block m c ⟨n + 1, h⟩ h0 r row hrow
    · refine later_block m c ⟨n + 1, h⟩ h0 r row hrow ?_
      show ((outsAt0 m c n _).2 : Vec Ideal S1024 .f32) (ix1 r) = upTo m c row (1024 * ((n + 1) % 32))
      rw [show 1024 * ((n + 1) % 32) = 1024 * (n % 32 + 1) by omega]
      exact scratch_after c n (Nat.lt_of_succ_lt h) r row (by omega)

/-- What a patch block's last memory block writes out: at `r`, the least distance of patch row `1024 (t / 32) + r` to
    the whole memory. -/
theorem written_out (c : Dev nD) (t : Fin cfg0.N) (h1 : t.val % 32 = 31) (r : Fin 1024) (row : Fin 8192)
    (hrow : row.val = 1024 * (t.val / 32) + r.val) :
    ((outsAt0 m c t.val t.isLt).1 : Vec Ideal S1024 .f32) (ix1 r)
      = nearest (patchSq m c) (memorySq m c) (patches m c) (memory m c) (ix1 row) := by
  have h0 : ¬t.val % 32 = 0 := by omega
  rw [outsAt0_C m c t h0 h1]
  dsimp only
  refine (congrFun (CasePieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t)
    (outsAt0 m c (t.val - 1) (Nat.lt_of_le_of_lt (Nat.sub_le _ _) t.isLt)).2) (ix1 r)).trans ?_
  refine (point_step m c t _ r row hrow ?_).trans ?_
  · rw [show 1024 * (t.val % 32) = 1024 * ((t.val - 1) % 32 + 1) by omega]
    exact scratch_after m c (t.val - 1) (Nat.lt_of_le_of_lt (Nat.sub_le _ _) t.isLt) r row (by omega)
  · rw [h1]
    exact nearestUpTo_all _ _ _ _ row

end Cert.KernelIdeal.RunningMin

end
-- ==== Proof.KernelScore.lean ====
/-
  The kernel's result.

  Only a patch block's last memory block writes its output block back, and that block holds the least distances of
  the block's 1024 patch rows to the whole memory; the eight written blocks tile the result vector of the grid, so
  after the grid it holds `nearest` of the arrays. The score is the maximum of that vector, taken by one reduction
  after the grid.
-/
import proofs.«118768_j2585570312716_1_alg».proof.Proof.RunningMin
import Idealize.ShloMosaic.Lib.Pipeline.Value

set_option maxRecDepth 16384

noncomputable section

namespace Cert.KernelIdeal.Score

open Cert.KernelIdeal Cert.KernelIdeal.Gen Idealize.ShloMosaic Idealize.ShloMosaic.TcCoe Idealize.SL.Sem
open Idealize.ShloMosaic.ValueIdx Cert.NearestMemory Cert.KernelIdeal.RunningMin
open Idealize.ShloMosaic.Pipeline (Dat)

variable (m : (ℓ : Loc nD τ sig) → Buf (Elt Ideal) ℓ) (ρ : Dev nD → PrngReg)

/-- Every patch row's least distance to the memory, over this run's arrays. -/
abbrev least (c : Dev nD) : (⟨1, ![8192]⟩ : Shape).Idx → EReal :=
  nearest (patchSq m c) (memorySq m c) (patches m c) (memory m c)

/-- What a writing point writes back is its block of `least`. -/
theorem flushed_eq (c : Dev nD) (t : Fin cfg0.N) (hf : (cfg0.win 4).flush t = true) :
    (dats m 0 c).flushed 4 t = ((cfg0.win 4).blk t).view.read (Elt Ideal) (least m c) := by
  have h1 : t.val % 32 = 31 := (flush0_4 t).mp hf
  have hN : t.val < 256 := lt_of_lt_of_eq t.isLt N_0
  obtain ⟨e0, e1, e2, e3, e4, e5, e6, e7, e8⟩ := idx_facts t
  show (cfg0.win 4).cut (grid0.coords t) ((dats m 0 c).after 4 t) = _
  rw [after0_4]
  funext j
  have hj : (j 0).val < 1024 := (j 0).isLt
  rw [View.read_apply]
  refine Eq.trans ?_ (cast_eq _ _).symm
  change (outsAt0 m c t.val t.isLt).1 j = least m c (((cfg0.win 4).blk t).view.emb j)
  have ej : (j : S1024.Idx) = ix1 (⟨(j 0).val, hj⟩ : Fin 1024) :=
    funext fun a => Fin.ext (by match a with | ⟨0, _⟩ => rfl)
  refine (congrArg ((outsAt0 m c t.val t.isLt).1 : Vec Ideal S1024 .f32) ej).trans ?_
  refine (written_out m c t h1 ⟨(j 0).val, hj⟩ ⟨1024 * (t.val / 32) + (j 0).val, by omega⟩ rfl).trans ?_
  refine congrArg (least m c) (funext fun a => Fin.ext ?_)
  match a with
  | ⟨0, _⟩ => show 1024 * (t.val / 32) + (j 0).val = win0_4.index t (0 : Fin 1) * 1024 + 1 * (j 0).val; omega

/-- An index of the result vector is in point `t`'s block iff it is in the block's range. -/
theorem mem_blk (t : Fin cfg0.N) (i : S8192.Idx) :
    i ∈ ((cfg0.win 4).blk t).view.set ↔ ∀ a : Fin 1, win0_4.index t a * S1024.size a ≤ (i a).val ∧ (i a).val < win0_4.index t a * S1024.size a + S1024.size a := by
  show i ∈ ((View.whole main_v6).slice (win0_4.rect t)).set ↔ _
  rw [View.set_slice_whole, Rect.mem_set_unit]
  exact Iff.rfl

/-- Every index of the result vector is in a writing point's block: row `n` in that of the last memory block of
    patch block `n / 1024`. -/
theorem cover (i : S8192.Idx) : ∃ t : Fin cfg0.N, (cfg0.win 4).flush t = true ∧ i ∈ ((cfg0.win 4).blk t).view.set := by
  have hi : (i 0).val < 8192 := (i 0).isLt
  have ht : 32 * ((i 0).val / 1024) + 31 < cfg0.N := by rw [show cfg0.N = 256 from N_0]; omega
  refine ⟨⟨32 * ((i 0).val / 1024) + 31, ht⟩, (flush0_4 _).mpr (by show (32 * ((i 0).val / 1024) + 31) % 32 = 31; omega), ?_⟩
  rw [mem_blk]
  intro a
  have e8 := (idx_facts ⟨32 * ((i 0).val / 1024) + 31, ht⟩).2.2.2.2.2.2.2.2
  match a with
  | ⟨0, _⟩ =>
    show win0_4.index ⟨32 * ((i 0).val / 1024) + 31, ht⟩ (0 : Fin 1) * 1024 ≤ (i 0).val
      ∧ (i 0).val < win0_4.index ⟨32 * ((i 0).val / 1024) + 31, ht⟩ (0 : Fin 1) * 1024 + 1024
    rw [e8]
    show (32 * ((i 0).val / 1024) + 31) / 32 * 1024 ≤ (i 0).val ∧ (i 0).val < (32 * ((i 0).val / 1024) + 31) / 32 * 1024 + 1024
    omega

/-- The result vector of the grid ends holding `least`. -/
theorem final (c : Dev nD) : (dats m 0 c).arrAt 4 cfg0.N = least m c :=
  (dats m 0 c).arrAt_eq_of_cover 4 (least m c) (flushed_eq m c) cover

/-- The score of a vector of least distances: its maximum, from `−∞`. -/
abbrev score (v : (⟨1, ![8192]⟩ : Shape).Idx → EReal) : (⟨0, ![]⟩ : Shape).Idx → EReal :=
  Host.reduce (FloatOps.maximumf (F := Ideal) (φ := .f32)) v (constant (F := Ideal) S_ .f32 0xFF800000#32) reducesTo_S8192_S_d0 h_S_

/-- The reduction after the grid leaves the score of `least`. -/
theorem tail_value (c : Dev nD) :
    Pipeline.afterTail₀ cfgs (dats m) 0 (V0 m) [hostOps1] c main_v7 = score (least m c) := by
  unfold Pipeline.afterTail₀
  show StableHlo.after hostOps1 _ (Proc.devRef .tc main_v7) = _
  after_results
  exact congrArg score ((Pipeline.withArrays_arr spec0 launch0.win.arr_inj c _ _ 4).trans (final m c))

/-- The run, read: the result at the score of `least`, the two arguments unchanged. -/
theorem run : θ_run defs (onTc (τ := τ) (main (F := Ideal))) ⟨m, fun _ => 0, ρ⟩ fun r => ∀ c : Dev nD,
      r.2.mem ((c.tc : Thread nD τ).loc main_v7) = score (least m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v7 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Score

end
-- ==== Proof.RefRowMin.lean ====
/-
  The reference, read row by row.

  The reference forms the whole 8192 × 32768 matrix of distances — the squared norms broadcast to a column and to a
  row and added, twice the matrix of inner products subtracted, the result cut off below at zero, the root taken —
  and reduces each row by `min` from `+∞`. Entry `(n, m)` of the matrix is the distance of patch row `n` and memory
  row `m`, and a row's reduction is the infimum over all memory rows: the function `nearest` of the two arrays and
  their rows' squared norms.
-/
import proofs.«118768_j2585570312716_1_alg».proof.Proof.Gen.ReferenceIdeal.Run
import proofs.«118768_j2585570312716_1_alg».proof.Proof.Gen.ReferenceIdeal.Read
import proofs.«118768_j2585570312716_1_alg».proof.Proof.NearestSpec
import Idealize.ShloMosaic.PureOps.Reduce

noncomputable section

open scoped BigOperators

namespace Cert.ReferenceIdeal.RowMin

open Cert.ReferenceIdeal Cert.ReferenceIdeal.Gen Cert.ReferenceIdeal.Read Idealize.ShloMosaic
open Idealize.ShloMosaic.ValueIdx Cert.NearestMemory

variable (X : (⟨2, ![8192, 512]⟩ : Shape).Idx → EReal) (Y : (⟨2, ![32768, 512]⟩ : Shape).Idx → EReal)

/-- The rows' squared norms, as the reference computes them. -/
abbrev patchSq : (⟨1, ![8192]⟩ : Shape).Idx → EReal :=
  Host.reduceAdd (F := Ideal) (mulf X X) (constant S_ .f32 0x00000000#32) reducesTo_S8192x512_S8192_d1 h_S_
abbrev memorySq : (⟨1, ![32768]⟩ : Shape).Idx → EReal :=
  Host.reduceAdd (F := Ideal) (mulf Y Y) (constant S_ .f32 0x00000000#32) reducesTo_S32768x512_S32768_d1 h_S_

/-- Entry `(n, m)` of the reference's distance matrix. -/
theorem dist_entry (n : Fin 8192) (mm : Fin 32768) :
    val_main_v15 (F := Ideal) X Y (ix2 n mm) = dist (patchSq X) (memorySq Y) X Y n mm := by
  rw [val_main_v15_apply, val_main_v14_apply, val_main_v12_apply, val_main_v13_apply, val_main_cst_2_apply,
    val_main_v9_apply, val_main_v11_apply, val_main_v10_apply, val_main_cst_1_apply, val_main_v4_apply,
    val_main_v7_apply, val_main_v8_apply, val_main_v5_apply, val_main_v6_apply]
  have i1 : idx_main_v5 (idx_main_v7 (ix2 n mm)) = ix1 n := funext fun a => Fin.ext (by match a with | ⟨0, _⟩ => rfl)
  have i2 : idx_main_v6 (idx_main_v8 (ix2 n mm)) = ix1 mm := funext fun a => Fin.ext (by match a with | ⟨0, _⟩ => rfl)
  have il : ∀ k : Fin 512, lidx_main_v4 (ix2 n mm) k = ix2 n k := fun k => funext fun a => Fin.ext (by
    match a with | ⟨0, _⟩ => rfl | ⟨1, _⟩ => rfl)
  have ir : ∀ k : Fin 512, ridx_main_v4 (ix2 n mm) k = ix2 mm k := fun k => funext fun a => Fin.ext (by
    match a with | ⟨0, _⟩ => rfl | ⟨1, _⟩ => rfl)
  simp only [i1, i2, il, ir, Ideal.hostUnary_sqrt_def, Ideal.maximumf_def, Ideal.subf_def, Ideal.addf_def, Ideal.mulf_def,
    Ideal.ofBits_def]
  rfl

/-- The reference's row minimum is the least distance to the whole memory. -/
theorem rowMin_eq : val_main_v16 (F := Ideal) X Y = nearest (patchSq X) (memorySq Y) X Y := by
  funext i
  obtain ⟨n, rfl⟩ : ∃ n : Fin 8192, i = ix1 n := ⟨i 0, eq_ix1 i⟩
  unfold val_main_v16
  rw [Host.reduce_eq_fold_single FloatOps.minimumf _ _ reducesTo_S8192x32768_S8192_d1 (by decide) h_S_]
  refine (fold_min_posInf (ι := Fin 32768) _).trans ?_
  unfold nearest
  refine congrArg Finset.univ.inf (funext fun mm => ?_)
  refine Eq.trans ?_ (dist_entry X Y n mm)
  exact congrArg (val_main_v15 (F := Ideal) X Y) (funext fun a => Fin.ext (by
    match a with | ⟨0, _⟩ => rfl | ⟨1, _⟩ => rfl))

end Cert.ReferenceIdeal.RowMin

end
-- ==== Proof.lean ====
/-
  The image score of a patch set against a memory bank: the largest, over the 8192 patch rows, of the row's least
  Euclidean distance to the 32768 memory rows, each distance computed as the root of
  `(‖p‖² + ‖q‖²) − 2 ⟨p, q⟩` cut off below at zero.

  The kernel walks an 8 × 32 grid of 1024 × 1024 tiles. For each block of patch rows it keeps a running minimum
  over the memory blocks — started at `+∞` on the first memory block, written out after the last — and a final
  reduction takes the maximum of the 8192 minima. The reference forms the whole distance matrix, reduces its rows by
  `min` from `+∞` and takes the same maximum. Over the extended reals both row minima are the infimum of one and
  the same family of distances (the tile's inner products are the matrix product's entries, narrowing the operands
  to bf16 changes nothing, and a minimum taken block by block is the minimum over all rows), so the two scores are
  equal; the order is complete, so no entry needs to be finite. The idealization rewrote nothing.
-/
import proofs.«118768_j2585570312716_1_alg».proof.Defs
import proofs.«118768_j2585570312716_1_alg».proof.Proof.Gen.Kernel
import proofs.«118768_j2585570312716_1_alg».proof.Proof.Gen.Kernel.Skeleton
import proofs.«118768_j2585570312716_1_alg».proof.Proof.Gen.Kernel.Launch
import proofs.«118768_j2585570312716_1_alg».proof.Proof.Gen.Kernel.Points
import proofs.«118768_j2585570312716_1_alg».proof.Proof.Gen.Kernel.Frame
import proofs.«118768_j2585570312716_1_alg».proof.Proof.Gen.KernelIdeal
import proofs.«118768_j2585570312716_1_alg».proof.Proof.Gen.KernelIdeal.Skeleton
import proofs.«118768_j2585570312716_1_alg».proof.Proof.Gen.KernelIdeal.Launch
import proofs.«118768_j2585570312716_1_alg».proof.Proof.Gen.KernelIdeal.Points
import proofs.«118768_j2585570312716_1_alg».proof.Proof.Gen.KernelIdeal.Frame
import proofs.«118768_j2585570312716_1_alg».proof.Proof.Gen.ReferenceIdeal
import proofs.«118768_j2585570312716_1_alg».proof.Proof.Gen.ReferenceIdeal.Run
import proofs.«118768_j2585570312716_1_alg».proof.Proof.Gen.ReferenceIdeal.Read
import proofs.«118768_j2585570312716_1_alg».proof.Proof.Gen.Pre_finite_inputs
import proofs.«118768_j2585570312716_1_alg».proof.Proof.KernelScore
import proofs.«118768_j2585570312716_1_alg».proof.Proof.RefRowMin
import Idealize.ShloMosaic.Adequacy
import Idealize.ShloMosaic.Init

noncomputable section

namespace Cert.Proof

open Idealize.ShloMosaic Idealize.SL.Sem

/-- Both kernels run to the end without a fault and leave the two arrays as they found them. -/
theorem frame_k : Cert.frame_Kernel := fun m ρ _ => Cert.Kernel.Gen.frame m ρ
theorem frame_ki : Cert.frame_KernelIdeal := fun m ρ _ => Cert.KernelIdeal.Gen.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel ends at the maximum of the patch rows' least distances, the reference at the maximum of its row minima,
    which are those same least distances of arrays that agree. -/
theorem algebraic : Cert.algebraic_KernelIdeal_ReferenceIdeal := by
  intro m ρ m' ρ' _ hagree
  refine ⟨fun c => Cert.KernelIdeal.Score.score (Cert.KernelIdeal.Score.least m c), Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq]
  unfold Cert.ReferenceIdeal.Read.val_main_v17
  rw [Cert.ReferenceIdeal.RowMin.rowMin_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
